-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S100000x64 : Shape := ⟨2, ![100000, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : IVec S2048x2048 32) (main_arg1 : FVec F S100000x64 .f32) (main_arg2 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S2048x2048 : Shape := ⟨2, ![2048, 2048]⟩
abbrev S100000x64 : Shape := ⟨2, ![100000, 64]⟩
abbrev S64 : Shape := ⟨1, ![64]⟩
abbrev S_ : Shape := ⟨0, ![]⟩
abbrev S2048x2048x1 : Shape := ⟨3, ![2048, 2048, 1]⟩
abbrev S2048x2048x64 : Shape := ⟨3, ![2048, 2048, 64]⟩
abbrev S4194304x64 : Shape := ⟨2, ![4194304, 64]⟩
abbrev S1x64 : Shape := ⟨2, ![1, 64]⟩
abbrev S16384x64 : Shape := ⟨2, ![16384, 64]⟩

abbrev nBuf : Space → Nat
  | .hbm => 16
  | .vmem => 5
  | .smem => 0
  | _ => 0

abbrev bufTy : (tb : Table) → Fin (tcTables nBuf tb) → BufTy
  | .hbm, ⟨0, _⟩ => ⟨S2048x2048, .i32⟩
  | .hbm, ⟨1, _⟩ => ⟨S100000x64, .f32⟩
  | .hbm, ⟨2, _⟩ => ⟨S64, .f32⟩
  | .hbm, ⟨3, _⟩ => ⟨S_, .i32⟩
  | .hbm, ⟨4, _⟩ => ⟨S2048x2048, .i32⟩
  | .hbm, ⟨5, _⟩ => ⟨S2048x2048, .i1⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048x1, .i32⟩
  | .hbm, ⟨11, _⟩ => ⟨S2048x2048x64, .f32⟩
  | .hbm, ⟨12, _⟩ => ⟨S4194304x64, .f32⟩
  | .hbm, ⟨13, _⟩ => ⟨S1x64, .f32⟩
  | .hbm, ⟨14, _⟩ => ⟨S4194304x64, .f32⟩
  | .hbm, ⟨15, _⟩ => ⟨S2048x2048x64, .f32⟩
  | .local _ .vmem, ⟨0, _⟩ => ⟨S16384x64, .f32⟩
  | .local _ .vmem, ⟨1, _⟩ => ⟨S16384x64, .f32⟩
  | .local _ .vmem, ⟨2, _⟩ => ⟨S1x64, .f32⟩
  | .local _ .vmem, ⟨3, _⟩ => ⟨S16384x64, .f32⟩
  | .local _ .vmem, ⟨4, _⟩ => ⟨S16384x64, .f32⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  shapeCasts_S2048x2048x64_S4194304x64 : S2048x2048x64.ShapeCasts S4194304x64
  shapeCasts_S64_S1x64 : S64.ShapeCasts S1x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  shapeCasts_S4194304x64_S2048x2048x64 : S4194304x64.ShapeCasts S2048x2048x64
  gather_S100000x64_S2048x2048x1_S2048x2048x64_2_0_n_n_0_2_164_wf : GatherDims.WF S100000x64 S2048x2048x1 S2048x2048x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S4194304x64.size a
  hwx0_0 : ∀ i : grid0.Coords, EltTy.bits .f32 = 32 ∨ (Rect.block (s := S4194304x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S4194304x64.size a
  hwx0_2 : ∀ i : grid0.Coords, EltTy.bits .f32 = 32 ∨ (Rect.block (s := S4194304x64) S16384x64.size (cc0_transform_2 i) (hinb0_2 i)).WholeWords (EltTy.packing .f32)

variable [Facts₀]

def gather_S100000x64_S2048x2048x1_S2048x2048x64_2_0_n_n_0_2_164 : GatherDims S100000x64 S2048x2048x1 S2048x2048x64 where
  offsetDims := [2]
  collapsedSliceDims := [0]
  operandBatchingDims := []
  startIndicesBatchingDims := []
  startIndexMap := [0]
  indexVectorDim := 2
  sliceSizes := ![1, 64]
  wf := gather_S100000x64_S2048x2048x1_S2048x2048x64_2_0_n_n_0_2_164_wf

abbrev win0_0 : Pipeline.Window sig grid0 :=
  Pipeline.Window.ofSpec (Memref.whole main_v7) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S100000x64 : Shape := ⟨2, ![100000, 64]⟩
abbrev S64 : Shape := ⟨1, ![64]⟩
abbrev S_ : Shape := ⟨0, ![]⟩
abbrev S2048x2048x1 : Shape := ⟨3, ![2048, 2048, 1]⟩
abbrev S2048x2048x64 : Shape := ⟨3, ![2048, 2048, 64]⟩
abbrev S1x1x64 : Shape := ⟨3, ![1, 1, 64]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .i32⟩
  | .hbm, ⟨1, _⟩ => ⟨S100000x64, .f32⟩
  | .hbm, ⟨2, _⟩ => ⟨S64, .f32⟩
  | .hbm, ⟨3, _⟩ => ⟨S_, .i32⟩
  | .hbm, ⟨4, _⟩ => ⟨S2048x2048, .i32⟩
  | .hbm, ⟨5, _⟩ => ⟨S2048x2048, .i1⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048x1, .i32⟩
  | .hbm, ⟨11, _⟩ => ⟨S2048x2048x64, .f32⟩
  | .hbm, ⟨12, _⟩ => ⟨S1x1x64, .f32⟩
  | .hbm, ⟨13, _⟩ => ⟨S2048x2048x64, .f32⟩
  | .hbm, ⟨14, _⟩ => ⟨S2048x2048x64, .f32⟩
  | .hbm, ⟨15, _⟩ => ⟨S_, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048x64, .f32⟩
  | .hbm, ⟨20, _⟩ => ⟨S2048x2048x64, .f32⟩
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S64_S1x1x64_2 : S64.BroadcastsInDim S1x1x64 (![2] : Fin 1 → Fin S1x1x64.rank)
  bcast_S1x1x64_S2048x2048x64_0_1_2 : S1x1x64.BroadcastsInDim S2048x2048x64 (![0, 1, 2] : Fin 3 → Fin S2048x2048x64.rank)
  bcast_S_S2048x2048x64 : S_.BroadcastsInDim S2048x2048x64 (![] : Fin 0 → Fin S2048x2048x64.rank)
  gather_S100000x64_S2048x2048x1_S2048x2048x64_2_0_n_n_0_2_164_wf : GatherDims.WF S100000x64 S2048x2048x1 S2048x2048x64 [2] [0] [] [0] [] 2 ![1, 64]

variable [Facts₀]

def gather_S100000x64_S2048x2048x1_S2048x2048x64_2_0_n_n_0_2_164 : GatherDims S100000x64 S2048x2048x1 S2048x2048x64 where
  offsetDims := [2]
  collapsedSliceDims := [0]
  operandBatchingDims := []
  startIndicesBatchingDims := []
  startIndexMap := [0]
  indexVectorDim := 2
  sliceSizes := ![1, 64]
  wf := gather_S100000x64_S2048x2048x1_S2048x2048x64_2_0_n_n_0_2_164_wf

class Facts : Prop extends Facts₀ where

variable [Facts]
-- ==== Proof.Epilogue.lean ====
/-
  The kernel's one region, read as a value. The region sees two arrays: the flat table of looked-up rows
  `E : [4194304, 64]` and the bias as a one-row matrix `B : [1, 64]`. Its grid has 256 points; point `t` takes rows
  `16384·t … 16384·t + 16383` of `E` (all 64 columns) and the whole of `B`, and writes the same rows of the output.
  Entry `(r, d)` of what it writes is `max(E[r, d] + B[0, d], 0) + ε` (`act`): the bias row is broadcast down the block,
  the comparison is against the zero word, and `ε` is the one f32 word `0x3727C5AC`. The 256 blocks are disjoint and tile
  the output's rows (row `r` belongs to point `r / 16384`), so after the region the output array is `rows E B`: the
  entry function applied at every index, with the bias read at the index's column.
-/
import proofs.«111524_j45002667327785_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Epi

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-- One entry of the epilogue: `max(e + β, 0) + ε`, the zero and `ε` as the words the body splats. -/
def act (e β : F .f32) : F .f32 :=
  FloatOps.addf (FloatOps.maximumf (FloatOps.addf e β) (FloatOps.ofBits .f32 0x00000000#32)) (FloatOps.ofBits .f32 0x3727C5AC#32)

/-- The bias row's index under column `d`. -/
abbrev biasAt (d : Fin 64) : S1x64.Idx := ix2 (0 : Fin 1) d

/-- The output as one function of the region's two arrays: entry `(r, d)` is `act (E[r, d]) (B[0, d])`. -/
def rows (E : Vec F S4194304x64 .f32) (B : Vec F S1x64 .f32) : Vec F S4194304x64 .f32 :=
  fun i => act (E i) (B (biasAt (i 1)))

theorem hz : (![0, 0] : Fin 2 → Nat) = fun _ => 0 := funext fun a => by fin_cases a <;> rfl

/-- The body's stored value at entry `(p, q)` of a block: the entry function of the row block's entry and of the
    bias under column `q` (the two shape casts are to the same shape; the bias row is broadcast down the rows). -/
theorem pay_apply (x0 : Vec F S16384x64 .f32) (x1 : Vec F S1x64 .f32) (p : Fin 16384) (q : Fin 64) :
    k0_pay1 x0 x1 (ix2 p q) = act (x0 (ix2 p q)) (x1 (biasAt q)) := by
  unfold k0_pay1 act
  show FloatOps.addf (FloatOps.maximumf (FloatOps.addf (shapeCast S16384x64 x0 _ (ix2 p q))
      (broadcastTo S16384x64 (shapeCast S1x64 x1 _) _ (ix2 p q))) _) _ = _
  rw [shapeCast_self, shapeCast_self,
    broadcastTo_apply x1 broadcasts_S1x64_S16384x64 (ix2 p q) (biasAt q) (fun a => by
      match a with
      | ⟨0, _⟩ => rfl
      | ⟨1, _⟩ => rfl)]
  rfl

variable (m : (ℓ : Loc nD τ sig) → Buf (Elt F) ℓ)

/-- The printed index maps over the grid: the row windows (input 0, output 2) sit at block `(t, 0)`, the bias window at
    block `(0, 0)` at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `rows` of the two arrays as the region finds them: the row block read
    where the output's block sits, the bias block the whole bias row. -/
theorem flushed_eq (c : Dev nD) (t : Fin cfg0.N) :
    (dats m 0 c).flushed 2 t = ((cfg0.win 2).blk t).view.read (Elt F) (rows (V m c main_v7) (V m c main_v8)) := by
  show (cfg0.win 2).cut (grid0.coords t) ((dats m 0 c).after 2 t) = _
  rw [after0_2]
  unfold out0_2
  rw [View.canon_unit_zero hz]
  simp only [View.ld_unit_zero (S := S16384x64) hz, View.ld_unit_zero (S := S1x64) hz]
  obtain ⟨e0, e1, e2, e3, e4, e5⟩ := idx_facts t
  funext j
  show k0_pay1 (iblk m c 0 t) (iblk m c 1 t) j = rows (V m c main_v7) (V m c main_v8) (((cfg0.win 2).blk t).view.emb j)
  obtain ⟨p, q, rfl⟩ : ∃ (p : Fin 16384) (q : Fin 64), j = ix2 p q := ⟨j 0, j 1, eq_ix2 j⟩
  refine (pay_apply _ _ p q).trans ?_
  unfold rows
  have h0 : iblk m c 0 t (ix2 p q) = V m c main_v7 (((cfg0.win 2).blk t).view.emb (ix2 p q)) := by
    show V m c main_v7 (((cfg0.win 0).blk t).view.emb (ix2 p q)) = _
    refine congrArg _ (funext fun a => Fin.ext ?_)
    match a with
    | ⟨0, _⟩ => show win0_0.index t (0 : Fin 2) * 16384 + 1 * p.val = win0_2.index t (0 : Fin 2) * 16384 + 1 * p.val; omega
    | ⟨1, _⟩ => show win0_0.index t (1 : Fin 2) * 64 + 1 * q.val = win0_2.index t (1 : Fin 2) * 64 + 1 * q.val; omega
  have h1 : iblk m c 1 t (biasAt q) = V m c main_v8 (biasAt ((((cfg0.win 2).blk t).view.emb (ix2 p q)) 1)) := by
    show V m c main_v8 (((cfg0.win 1).blk t).view.emb (biasAt q)) = _
    refine congrArg _ (funext fun a => Fin.ext ?_)
    match a with
    | ⟨0, _⟩ => show win0_1.index t (0 : Fin 2) * 1 + 1 * 0 = 0; omega
    | ⟨1, _⟩ => show win0_1.index t (1 : Fin 2) * 64 + 1 * q.val = win0_2.index t (1 : Fin 2) * 64 + 1 * q.val; omega
  exact congrArg₂ act h0 h1

/-- An index of the output array is in point `t`'s block iff each coordinate is in the block's range on its axis. -/
theorem mem_blk (t : Fin cfg0.N) (i : S4194304x64.Idx) :
    i ∈ ((cfg0.win 2).blk t).view.set ↔ ∀ a : Fin 2, win0_2.index t a * S16384x64.size a ≤ (i a).val ∧ (i a).val < win0_2.index t a * S16384x64.size a + S16384x64.size a := by
  show i ∈ ((View.whole main_v9).slice (win0_2.rect t)).set ↔ _
  rw [View.set_slice_whole, Rect.mem_set_unit]
  exact Iff.rfl

/-- Every index of the output array is in the block of the point its row falls to: row `r` is in block `r / 16384`. -/
theorem cover (i : S4194304x64.Idx) : ∃ t : Fin cfg0.N, (cfg0.win 2).flush t = true ∧ i ∈ ((cfg0.win 2).blk t).view.set := by
  have hi0 : (i 0).val < 4194304 := (i 0).isLt
  have hi1 : (i 1).val < 64 := (i 1).isLt
  have hN : cfg0.N = 256 := N_0
  let t : Fin cfg0.N := ⟨(i 0).val / 16384, by rw [hN]; omega⟩
  refine ⟨t, flush0_2 t, ?_⟩
  rw [mem_blk]
  obtain ⟨-, -, -, -, e4, e5⟩ := idx_facts t
  have e4' : win0_2.index t (0 : Fin 2) = (i 0).val / 16384 := e4
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 64 ≤ (i 1).val ∧ (i 1).val < win0_2.index t (1 : Fin 2) * 64 + 64; omega

/-- THE OUTPUT ARRAY after the region: `rows` of the two arrays as the region finds them. -/
theorem final (c : Dev nD) : (dats m 0 c).arrAt 2 cfg0.N = rows (V m c main_v7) (V m c main_v8) :=
  (dats m 0 c).arrAt_eq_of_cover 2 _ (fun t _ => flushed_eq m c t) cover

/-- The row a lookup reads: the index, with `100000` added when it is negative (the host's wrap of a negative index),
    as the one-column array of start indices the gather takes. -/
def starts (x : Vec F S2048x2048 .i32) : Vec F S2048x2048x1 .i32 :=
  broadcastInDim S2048x2048x1 ![0, 1] bcast_S2048x2048_S2048x2048x1_0_1
    (select (cmpi .slt x (broadcastInDim S2048x2048 ![] bcast_S_S2048x2048 (constantI S_ 32 0#32)))
      (addi x (broadcastInDim S2048x2048 ![] bcast_S_S2048x2048 (constantI S_ 32 100000#32))) x)

/-- The looked-up rows, `[2048, 2048, 64]`: the host's gather of the table at the start indices. -/
def looked (x : Vec F S2048x2048 .i32) (W : Vec F S100000x64 .f32) : Vec F S2048x2048x64 .f32 :=
  Host.gather gather_S100000x64_S2048x2048x1_S2048x2048x64_2_0_n_n_0_2_164 W (starts x)

theorem V_main_v7 (c : Dev nD) : (V m c main_v7 : Vec F S4194304x64 .f32)
    = shapeCast S4194304x64 (looked (m ((c : Thread nD τ).loc main_arg0)) (m ((c : Thread nD τ).loc main_arg1))) shapeCasts_S2048x2048x64_S4194304x64 := by
  show StableHlo.after hostOps0 (fun b => m (c, b)) (Proc.devRef .tc main_v7) = _
  after_results
  rfl

theorem V_main_v8 (c : Dev nD) : (V m c main_v8 : Vec F S1x64 .f32)
    = shapeCast S1x64 (m ((c : Thread nD τ).loc main_arg2)) shapeCasts_S64_S1x64 := by
  show StableHlo.after hostOps0 (fun b => m (c, b)) (Proc.devRef .tc main_v8) = _
  after_results
  rfl

/-- The program's result: the one host line after the region lays the output array's rows out as `[2048, 2048, 64]`. -/
theorem tail_main_v10 (c : Dev nD) :
    (Pipeline.afterTail₀ cfgs (dats m) 0 (V0 m) [hostOps1] c main_v10 : Vec F S2048x2048x64 .f32)
      = shapeCast S2048x2048x64 (rows (V m c main_v7) (V m c main_v8)) shapeCasts_S4194304x64_S2048x2048x64 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = rows (V m c main_v7) (V m c main_v8) :=
    (Pipeline.withArrays_arr spec0 launch0.win.arr_inj c _ _ 2).trans (final m c)
  rw [e]
  rfl

/-- The program's result as one function of the looked-up rows `L : [2048, 2048, 64]` and the bias `β : [64]`: entry
    `(a, b, d)` is `act (L[a, b, d]) (β[d])`. -/
def result (L : Vec F S2048x2048x64 .f32) (β : Vec F S64 .f32) : Vec F S2048x2048x64 .f32 :=
  fun i => act (L i) (β (ix1 (i 2)))

/-- Flattening the looked-up rows to `[4194304, 64]`, applying `rows` with the bias as a one-row matrix, and laying the rows
    out again as `[2048, 2048, 64]` is `result`: entry `(a, b, d)` and entry `(2048·a + b, d)` have the same row-major
    position, and `rows` works entry by entry, reading the bias at the column, which both layouts keep last. -/
theorem relaid (L : Vec F S2048x2048x64 .f32) (β : Vec F S64 .f32) :
    shapeCast S2048x2048x64 (rows (shapeCast S4194304x64 L shapeCasts_S2048x2048x64_S4194304x64)
      (shapeCast S1x64 β shapeCasts_S64_S1x64)) shapeCasts_S4194304x64_S2048x2048x64 = result L β := by
  funext i
  obtain ⟨a, b, d, rfl⟩ : ∃ (a : Fin 2048) (b : Fin 2048) (d : Fin 64), i = ix3 a b d := ⟨i 0, i 1, i 2, eq_ix3 i⟩
  have hr : a.val * 2048 + b.val < 4194304 := by have := a.isLt; have := b.isLt; omega
  have hflat : (S4194304x64.rowMajor (ix2 (⟨a.val * 2048 + b.val, hr⟩ : Fin 4194304) d)).val
      = (S2048x2048x64.rowMajor (ix3 a b d)).val := by
    rw [Shape.rowMajor_val_two, Shape.rowMajor_val_three]
    rfl
  rw [shapeCast_apply _ shapeCasts_S4194304x64_S2048x2048x64 (ix3 a b d) (ix2 (⟨a.val * 2048 + b.val, hr⟩ : Fin 4194304) d) hflat]
  unfold rows result
  rw [shapeCast_apply L shapeCasts_S2048x2048x64_S4194304x64 (ix2 (⟨a.val * 2048 + b.val, hr⟩ : Fin 4194304) d) (ix3 a b d) hflat.symm]
  show act (L (ix3 a b d)) (shapeCast S1x64 β shapeCasts_S64_S1x64 (ix2 (0 : Fin 1) d)) = act (L (ix3 a b d)) (β (ix1 d))
  rw [shapeCast_apply β shapeCasts_S64_S1x64 (ix2 (0 : Fin 1) d) (ix1 d) (by
    rw [Shape.rowMajor_val_one, Shape.rowMajor_val_two]
    show d.val = 0 * 64 + d.val
    rw [Nat.zero_mul, Nat.zero_add])]

/-- THE KERNEL PROGRAM'S RUN, READ: every weakly fair execution terminates with the result array at `result` of the
    looked-up rows and the bias, the three arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v10)
          = result (looked (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans
        ((tail_main_v10 m c).trans (by rw [V_main_v7, V_main_v8]; exact relaid _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Epi

end
-- ==== Proof.RefValue.lean ====
/-
  The reference, read as a value. Its @main looks the rows up exactly as the kernel's host lines do (the same wrap of a
  negative index, the same gather of the table), adds the bias broadcast along the last axis, takes the maximum with the
  zero word and adds the word `ε`. Entry by entry that is the kernel program's `result` of the looked-up rows and the
  bias: the two broadcasts of the bias, `[64] → [1, 1, 64] → [2048, 2048, 64]`, read the bias at the last coordinate.
-/
import proofs.«111524_j45002667327785_1_alg».proof.Proof.Gen.ReferenceIdeal.Read
import proofs.«111524_j45002667327785_1_alg».proof.Proof.Epilogue

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable {F : FTy → Type} [FloatOps F]

/-- The reference's last stage is the kernel program's `result` of the looked-up rows and the bias. -/
theorem stage_eq (x0 : Vec F S2048x2048 .i32) (x1 : Vec F S100000x64 .f32) (x2 : Vec F S64 .f32) :
    val_main_v12 (F := F) x0 x1 x2 = Cert.KernelIdeal.Epi.result (Cert.KernelIdeal.Epi.looked x0 x1) x2 := by
  funext i
  rw [val_main_v12_apply, val_main_v10_apply, val_main_v9_apply, val_main_v8_apply, val_main_v7_apply,
    val_main_call0_v0_apply, val_main_call0_cst_apply, val_main_v11_apply, val_main_cst_apply]
  have hidx : idx_main_v7 (idx_main_v8 i) = ix1 (i 2) :=
    funext fun a => Fin.ext (by match a with | ⟨0, _⟩ => rfl)
  rw [hidx]
  rfl

end Cert.ReferenceIdeal.RefValue

end
-- ==== Proof.lean ====
/-
  The kernel program looks rows of a table up on the host (`W[x]`, a negative index wrapped by `+100000`), flattens them
  to `[4194304, 64]`, and runs one region over 256 row blocks that adds the bias row, takes the maximum with zero and adds
  `ε = f32 0x3727C5AC`; a last host line lays the rows out again as `[2048, 2048, 64]`. The reference does the same
  lookup and the same three entrywise steps on the `[2048, 2048, 64]` array directly. At every index both are
  `max(W[x][a, b, d] + bias[d], 0) + ε` with the same lookup term, the same zero word and the same `ε` word, so the two
  results are one function of the arguments (`Epi.result`): no law of the extended reals is used, and the precondition is
  never opened. The three frames are the generated ones (the reference's is its generated run with the result dropped);
  the ideal pass rewrote nothing, so `preserves` is `True`.
-/
import proofs.«111524_j45002667327785_1_alg».proof.Defs
import proofs.«111524_j45002667327785_1_alg».proof.Proof.Gen.Kernel
import proofs.«111524_j45002667327785_1_alg».proof.Proof.Gen.Kernel.Skeleton
import proofs.«111524_j45002667327785_1_alg».proof.Proof.Gen.Kernel.Launch
import proofs.«111524_j45002667327785_1_alg».proof.Proof.Gen.Kernel.Points
import proofs.«111524_j45002667327785_1_alg».proof.Proof.Gen.Kernel.Frame
import proofs.«111524_j45002667327785_1_alg».proof.Proof.Gen.KernelIdeal
import proofs.«111524_j45002667327785_1_alg».proof.Proof.Gen.KernelIdeal.Skeleton
import proofs.«111524_j45002667327785_1_alg».proof.Proof.Gen.KernelIdeal.Launch
import proofs.«111524_j45002667327785_1_alg».proof.Proof.Gen.KernelIdeal.Points
import proofs.«111524_j45002667327785_1_alg».proof.Proof.Gen.KernelIdeal.Frame
import proofs.«111524_j45002667327785_1_alg».proof.Proof.Gen.ReferenceIdeal
import proofs.«111524_j45002667327785_1_alg».proof.Proof.Gen.Pre_finite_inputs
import proofs.«111524_j45002667327785_1_alg».proof.Proof.Gen.ReferenceIdeal.Run
import proofs.«111524_j45002667327785_1_alg».proof.Proof.Gen.ReferenceIdeal.Read
import proofs.«111524_j45002667327785_1_alg».proof.Proof.Epilogue
import proofs.«111524_j45002667327785_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `Epi.result` of the looked-up rows and the bias, from arguments that agree. -/
theorem algebraic : Cert.algebraic_KernelIdeal_ReferenceIdeal := by
  intro m ρ m' ρ' _ hagree
  refine ⟨_, Cert.KernelIdeal.Epi.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.stage_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
